-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel

variable [Facts]

def fn {F : FTy → Type} [FloatOps F] (main_arg0 : FVec F S64x1024x64 .f32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  main_v3
-- ==== Kernel.lean ====
abbrev S64x1024x64 : Shape := ⟨3, ![64, 1024, 64]⟩
abbrev S1x1 : Shape := ⟨2, ![1, 1]⟩
abbrev S_ : Shape := ⟨0, ![]⟩
abbrev S1x1024x64 : Shape := ⟨3, ![1, 1024, 64]⟩
abbrev S1024x64 : Shape := ⟨2, ![1024, 64]⟩
abbrev S64x1024 : Shape := ⟨2, ![64, 1024]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩
abbrev S1 : Shape := ⟨1, ![1]⟩

abbrev nBuf : Space → Nat
  | .hbm => 10
  | .vmem => 6
  | .smem => 0
  | _ => 0

abbrev bufTy : (tb : Table) → Fin (tcTables nBuf tb) → BufTy
  | .hbm, ⟨0, _⟩ => ⟨S64x1024x64, .f32⟩
  | .hbm, ⟨1, _⟩ => ⟨S1x1, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x1024x64, .f32⟩
  | .local _ .vmem, ⟨1, _⟩ => ⟨S1x1024x64, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0_0 : Ref sig .tc := ⟨.hbm, 1, rfl⟩
abbrev main_call0_v0_1 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_v4 : Ref sig .tc := ⟨.hbm, 7, rfl⟩
abbrev main_call0_cst_0 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v44 : BitVec 1 := Scalar.cmpi .eq arg0 c63_i32
  let v45 : BitVec 32 := Scalar.extui v44
  let c0_i32_18 : BitVec 32 := 0#32
  let v46 : BitVec 1 := Scalar.cmpi .ne v45 c0_i32_18
  v46

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  transposes_S1024x64_p1_0_S64x1024 : S1024x64.Transposes [1, 0] S64x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x1024x64.size a
  hwx0_0 : ∀ i : grid0.Coords, EltTy.bits .f32 = 32 ∨ (Rect.block (s := S64x1024x64) S1x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0_0) S1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1024x64 : Shape := ⟨3, ![64, 1024, 64]⟩
abbrev S64x1024x1024 : Shape := ⟨3, ![64, 1024, 1024]⟩
abbrev S1024 : Shape := ⟨1, ![1024]⟩
abbrev S_ : Shape := ⟨0, ![]⟩
abbrev S1024x1 : Shape := ⟨2, ![1024, 1]⟩
abbrev S1024x2 : Shape := ⟨2, ![1024, 2]⟩
abbrev S64x1024 : Shape := ⟨2, ![64, 1024]⟩

abbrev nBuf : Space → Nat
  | .hbm => 43
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x1024, .f32⟩
  | .hbm, ⟨2, _⟩ => ⟨S1024, .i32⟩
  | .hbm, ⟨3, _⟩ => ⟨S1024, .i32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1024x1, .i32⟩
  | .hbm, ⟨20, _⟩ => ⟨S1024x2, .i32⟩
  | .hbm, ⟨21, _⟩ => ⟨S64x1024, .f32⟩
  | .hbm, ⟨22, _⟩ => ⟨S64x1024, .f32⟩
  | .hbm, ⟨23, _⟩ => ⟨S_, .f32⟩
  | .hbm, ⟨24, _⟩ => ⟨S64x1024, .f32⟩
  | .hbm, ⟨25, _⟩ => ⟨S64x1024, .f32⟩
  | .hbm, ⟨26, _⟩ => ⟨S_, .f32⟩
  | .hbm, ⟨27, _⟩ => ⟨S64x1024, .f32⟩
  | .hbm, ⟨28, _⟩ => ⟨S64x1024, .f32⟩
  | .hbm, ⟨29, _⟩ => ⟨S64x1024, .f32⟩
  | .hbm, ⟨30, _⟩ => ⟨S_, .f32⟩
  | .hbm, ⟨31, _⟩ => ⟨S_, .f32⟩
  | .hbm, ⟨32, _⟩ => ⟨S64x1024x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1 : Ref sig .tc := ⟨.hbm, 3, rfl⟩
abbrev main_call0_c : Ref sig .tc := ⟨.hbm, 4, rfl⟩
abbrev main_call0_v2 : Ref sig .tc := ⟨.hbm, 5, rfl⟩
abbrev main_call0_v3 : Ref sig .tc := ⟨.hbm, 6, rfl⟩
abbrev main_call0_c_0 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_c_1 : Ref sig .tc := ⟨.hbm, 11, rfl⟩
abbrev main_call0_v7 : Ref sig .tc := ⟨.hbm, 12, rfl⟩
abbrev main_call0_v8 : Ref sig .tc := ⟨.hbm, 13, rfl⟩
abbrev main_call0_c_2 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_cst_5 : Ref sig .tc := ⟨.hbm, 41, rfl⟩
abbrev main_v15 : Ref sig .tc := ⟨.hbm, 42, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  bcast_S_S64x1024 : S_.BroadcastsInDim S64x1024 (![] : Fin 0 → Fin S64x1024.rank)
  reducesTo_S64x1024_S_d0_1 : S64x1024.ReducesTo [0, 1] S_
  h_S_ : 0 < S_.numel
  reducesTo_S64x1024x1024_S_d0_1_2 : S64x1024x1024.ReducesTo [0, 1, 2] S_
  dot_S64x1024x64_S64x1024x64_S64x1024x1024_2_2_1_1_0_0_wf : DotDims.WF S64x1024x64 S64x1024x64 S64x1024x1024 [2] [2] [1] [1] [0] [0]
  gather_S64x1024x1024_S1024x2_S64x1024_0_12_n_n_12_1_6411_wf : GatherDims.WF S64x1024x1024 S1024x2 S64x1024 [0] [1, 2] [] [1, 2] [] 1 ![64, 1, 1]

variable [Facts₀]

def dot_S64x1024x64_S64x1024x64_S64x1024x1024_2_2_1_1_0_0 : DotDims S64x1024x64 S64x1024x64 S64x1024x1024 where
  lhsContracting := [2]
  rhsContracting := [2]
  lhsNonContracting := [1]
  rhsNonContracting := [1]
  lhsBatch := [0]
  rhsBatch := [0]
  wf := dot_S64x1024x64_S64x1024x64_S64x1024x1024_2_2_1_1_0_0_wf
def gather_S64x1024x1024_S1024x2_S64x1024_0_12_n_n_12_1_6411 : GatherDims S64x1024x1024 S1024x2 S64x1024 where
  offsetDims := [0]
  collapsedSliceDims := [1, 2]
  operandBatchingDims := []
  startIndicesBatchingDims := []
  startIndexMap := [1, 2]
  indexVectorDim := 1
  sliceSizes := ![64, 1, 1]
  wf := gather_S64x1024x1024_S1024x2_S64x1024_0_12_n_n_12_1_6411_wf

class Facts : Prop extends Facts₀ where

variable [Facts]
-- ==== Proof.Spec.lean ====
/-
  The loss both programs compute, as one function of the input array x : [64, 1024, 64] over the extended reals.
  For a batch b the Gram matrix is g_b(i, j) = ∑ₖ x(b,i,k) · x(b,j,k). With
    s₁(b) = ∑ᵢ g_b(i,i),   s₂(b) = ∑ᵢ g_b(i,i)²,   q(b) = ∑ᵢ ∑ⱼ g_b(i,j)²,
  the batch's diagonal term is (1024 − 2·s₁(b)) + s₂(b), its off-diagonal term q(b) − s₂(b), and the loss is
    ((∑_b diagonal term) + λ · (∑_b off-diagonal term)) / 64,
  with λ, 64, 1024 and 2 the values of the float patterns the programs carry.
-/
import Idealize.ShloMosaic.PureOps.Ideal
import Idealize.ShloMosaic.Lib.ValueIdx

noncomputable section

namespace Cert.GramLoss

open Idealize.ShloMosaic Idealize.ShloMosaic.ValueIdx

/-- The input's shape. -/
abbrev SX : Shape := ⟨3, ![64, 1024, 64]⟩

/-- The constants, as the patterns the programs carry: 0, 1, 2, 1024, λ = f32(0.1), 64. -/
abbrev c0 : EReal := Ideal.ofBits .f32 0x00000000#32
abbrev c1 : EReal := Ideal.ofBits .f32 0x3F800000#32
abbrev c2 : EReal := Ideal.ofBits .f32 0x40000000#32
abbrev c1024 : EReal := Ideal.ofBits .f32 0x44800000#32
abbrev cLam : EReal := Ideal.ofBits .f32 0x3DCCCCCD#32
abbrev c64 : EReal := Ideal.ofBits .f32 0x42800000#32

/-- A stack of n matrices [1024, 64]: the whole input has n = 64, one batch's block n = 1. -/
abbrev Stack (n : ℕ) : Type := (⟨3, ![n, 1024, 64]⟩ : Shape).Idx → EReal

variable {n : ℕ}

/-- Entry (i, j) of batch b's Gram matrix: the inner product of rows i and j of x_b. -/
def gram (x : Stack n) (b : Fin n) (i j : Fin 1024) : EReal :=
  ∑ k : Fin 64, x (ix3 b i k) * x (ix3 b j k)

/-- The trace of batch b's Gram matrix. -/
def diagSum (x : Stack n) (b : Fin n) : EReal := ∑ i : Fin 1024, gram x b i i

/-- The sum of the squared diagonal entries of batch b's Gram matrix. -/
def diagSq (x : Stack n) (b : Fin n) : EReal := ∑ i : Fin 1024, gram x b i i * gram x b i i

/-- The sum of all squared entries of batch b's Gram matrix, row by row. -/
def allSq (x : Stack n) (b : Fin n) : EReal := ∑ i : Fin 1024, ∑ j : Fin 1024, gram x b i j * gram x b i j

/-- Batch b's diagonal term, ∑ᵢ (1 − g(i,i))² written as (1024 − 2·trace) + ∑ᵢ g(i,i)². -/
def diagTerm (x : Stack n) (b : Fin n) : EReal := (c1024 - c2 * diagSum x b) + diagSq x b

/-- Batch b's off-diagonal term: all squared entries minus the squared diagonal ones. -/
def offTerm (x : Stack n) (b : Fin n) : EReal := allSq x b - diagSq x b

/-- The Gram entries of a stack depend on the one batch read: if batch b of x is batch b' of y, entry by entry,
    their Gram matrices agree, and with them every per-batch total. -/
theorem gram_congr {n' : ℕ} (x : Stack n) (y : Stack n') (b : Fin n) (b' : Fin n')
    (h : ∀ (i : Fin 1024) (k : Fin 64), x (ix3 b i k) = y (ix3 b' i k)) (i j : Fin 1024) : gram x b i j = gram y b' i j := by
  unfold gram; simp only [h]

theorem diagTerm_congr {n' : ℕ} (x : Stack n) (y : Stack n') (b : Fin n) (b' : Fin n')
    (h : ∀ (i : Fin 1024) (k : Fin 64), x (ix3 b i k) = y (ix3 b' i k)) : diagTerm x b = diagTerm y b' := by
  unfold diagTerm diagSum diagSq; simp only [gram_congr x y b b' h]

theorem offTerm_congr {n' : ℕ} (x : Stack n) (y : Stack n') (b : Fin n) (b' : Fin n')
    (h : ∀ (i : Fin 1024) (k : Fin 64), x (ix3 b i k) = y (ix3 b' i k)) : offTerm x b = offTerm y b' := by
  unfold offTerm allSq diagSq; simp only [gram_congr x y b b' h]

/-- The loss from the two totals: (D + λ·O) / 64. -/
def combine (D O : EReal) : EReal := Ideal.div (D + cLam * O) c64

/-- The loss, batch by batch. -/
def loss (x : SX.Idx → EReal) : EReal := combine (∑ b : Fin 64, diagTerm x b) (∑ b : Fin 64, offTerm x b)

/-- The same three totals taken over whole index sets at once: over all (b, i) the terms (1 − 2·g_b(i,i)) + g_b(i,i)²,
    over all (b, i, j) the squares g_b(i,j)², over all (b, i) the squares g_b(i,i)², each sum started from 0. -/
def flatDiag (x : SX.Idx → EReal) : EReal :=
  c0 + ∑ j : (⟨2, ![64, 1024]⟩ : Shape).Idx, ((c1 - c2 * gram x (j 0) (j 1) (j 1)) + gram x (j 0) (j 1) (j 1) * gram x (j 0) (j 1) (j 1))
def flatAllSq (x : SX.Idx → EReal) : EReal :=
  c0 + ∑ j : (⟨3, ![64, 1024, 1024]⟩ : Shape).Idx, gram x (j 0) (j 1) (j 2) * gram x (j 0) (j 1) (j 2)
def flatDiagSq (x : SX.Idx → EReal) : EReal :=
  c0 + ∑ j : (⟨2, ![64, 1024]⟩ : Shape).Idx, gram x (j 0) (j 1) (j 1) * gram x (j 0) (j 1) (j 1)

/-- The loss from the flat totals. -/
def flatLoss (x : SX.Idx → EReal) : EReal := combine (flatDiag x) (flatAllSq x - flatDiagSq x)

end Cert.GramLoss

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPoint.lean ====
/-
  One grid point of the kernel, as arithmetic: what the body's pure terms compute of one batch's block
  x₀ : [1, 1024, 64] at the exact instance. The matrix unit gives the Gram matrix g(i, j) = ∑ₖ x₀(0,i,k)·x₀(0,j,k)
  (the change of float format is the identity there); the mask built from the two iotas is 1 on the diagonal and 0
  off it, so the masked row sums are the diagonal entries g(i, i); the remaining reductions are sums over rows.
  Hence the point adds (1024 − 2·∑ᵢ g(i,i)) + ∑ᵢ g(i,i)² to the first accumulator and
  ∑ᵢ∑ⱼ g(i,j)² − ∑ᵢ g(i,i)² to the second.
-/
import proofs.«164244_j37520834298331_1_alg».proof.Proof.Gen.KernelIdeal.Skeleton
import proofs.«164244_j37520834298331_1_alg».proof.Proof.Spec
import proofs.«164244_j37520834298331_1_alg».proof.Proof.LibPlainDot
import proofs.«164244_j37520834298331_1_alg».proof.Proof.LibColumnBroadcast
import Idealize.ShloMosaic.Lib.ValueLayout
import Idealize.ShloMosaic.Lib.Pipeline.Value
import Idealize.ShloMosaic.PureOps.Ideal.Laws

noncomputable section

namespace Cert.GramLoss.Point

open Idealize.ShloMosaic Idealize.ShloMosaic.ValueIdx Cert.KernelIdeal Cert.KernelIdeal.Gen Cert.GramLoss

/-- The one index of a [1, 1] array. -/
theorem idx11 (y : S1x1.Idx) : y = ix2 (0 : Fin 1) (0 : Fin 1) := by
  funext a; apply Fin.ext
  match a with
  | ⟨0, _⟩ => have h : (y 0).val < 1 := (y 0).isLt; show (y 0).val = 0; omega
  | ⟨1, _⟩ => have h : (y 1).val < 1 := (y 1).isLt; show (y 1).val = 0; omega

/-- The kernel's product record is the plain rows-by-columns one. -/
theorem dot_eq : dot_S1024x64_S64x1024_S1024x1024_1_0_0_1_n_n = DotDims.plain 1024 64 1024 := rfl

/-- The matrix unit's result at (i, j) is the Gram entry of rows i and j of the block. -/
theorem pay4_apply (x0 : Vec Ideal S1x1024x64 .f32) (i j : Fin 1024) :
    k0_pay4 (F := Ideal) x0 (ix2 i j) = gram (n := 1) x0 0 i j := by
  unfold k0_pay4 gram
  simp only [matmul]
  rw [dot_eq, plain_matmul_zero_apply]
  refine Finset.sum_congr rfl fun k _ => ?_
  show truncf .bf16 _ _ (ix2 i k) * transpose S64x1024 [1, 0] _ _ (ix2 k j) = _
  rw [transpose_ix2_apply, truncf_apply, truncf_apply, shapeCast_1ab_ab_apply, shapeCast_1ab_ab_apply]

/-- The mask's entry: the two iotas compared, widened and converted, is 1 on the diagonal and 0 off it. -/
theorem mask_val (i j : Fin 1024) :
    (FloatOps.sitofp (F := Ideal) .f32 ((IntOp.cmpi .eq (BitVec.ofNat 32 i.val) (BitVec.ofNat 32 j.val)).setWidth 32) : EReal)
      = if i = j then 1 else 0 := by
  show ((((IntOp.cmpi .eq (BitVec.ofNat 32 i.val) (BitVec.ofNat 32 j.val)).setWidth 32).toInt : ℝ) : EReal) = _
  by_cases h : i = j
  · subst h
    rw [if_pos rfl]
    simp [IntOp.cmpi]
  · rw [if_neg h]
    have hne : (BitVec.ofNat 32 i.val == BitVec.ofNat 32 j.val) = false := by
      rw [beq_eq_false_iff_ne]
      intro he
      have hv := congrArg BitVec.toNat he
      simp only [BitVec.toNat_ofNat] at hv
      have hi := i.isLt
      have hj := j.isLt
      rw [Nat.mod_eq_of_lt (by omega), Nat.mod_eq_of_lt (by omega)] at hv
      exact h (Fin.ext hv)
    simp [IntOp.cmpi, hne]

/-- A vector [a] viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The mask at (i, j), through the two broadcasts of the iotas. -/
theorem mask_apply (i j : Fin 1024) :
    (sitofp (F := Ideal) .f32 (extui 32 (cmpi .eq
        (broadcastTo S1024x1024 (iota .tc S1024x1 32 [0] iota_S1024x1_d0_w32) broadcasts_S1024x1_S1024x1024)
        (broadcastTo S1024x1024 (iota .tc S1x1024 32 [1] iota_S1x1024_d1_w32) broadcasts_S1x1024_S1024x1024)) natLt_1_32)
      : FVec Ideal S1024x1024 .f32) (ix2 i j) = if i = j then 1 else 0 := by
  rw [sitofp_apply, extui_apply]
  show FloatOps.sitofp (F := Ideal) .f32 ((IntOp.cmpi .eq
    (broadcastTo S1024x1024 (iota .tc S1024x1 32 [0] iota_S1024x1_d0_w32) broadcasts_S1024x1_S1024x1024 (ix2 i j))
    (broadcastTo S1024x1024 (iota .tc S1x1024 32 [1] iota_S1x1024_d1_w32) broadcasts_S1x1024_S1024x1024 (ix2 i j))).setWidth 32) = _
  rw [broadcastTo_a1_ab_apply, broadcastTo_1b_ab_apply, iota_single_apply, iota_single_apply]
  exact mask_val i j

/-- A sum along the rows of a [1024, 1024] array, at row i: the sum over the columns. -/
theorem rowSum_apply (src : FVec Ideal S1024x1024 .f32) (hφ : FKind.Formats .f32) (hacc : (0x00000000#32 : BitVec 32) = 0x00000000#32)
    (i : Fin 1024) :
    multiReduction .add [1] S1024 src 0x00000000#32 reduces_S1024x1024_S1024 hφ hacc (ix1 i) = ∑ k : Fin 1024, src (ix2 i k) :=
  (Ideal.multiReduction_add_single src 0x00000000#32 reduces_S1024x1024_S1024 hφ hacc (ix1 i)).trans
    (Finset.sum_congr rfl fun k _ => congrArg src (funext fun a => Fin.ext (by match a with | ⟨0, _⟩ => rfl | ⟨1, _⟩ => rfl)))

/-- A sum down a column [1024, 1], at its one index: the sum over the rows. -/
theorem colSum_apply (src : FVec Ideal S1024x1 .f32) (hφ : FKind.Formats .f32) (hacc : (0x00000000#32 : BitVec 32) = 0x00000000#32)
    (u : Fin 1) :
    multiReduction .add [0] S1 src 0x00000000#32 reduces_S1024x1_S1 hφ hacc (ix1 u) = ∑ k : Fin 1024, src (ix2 k (0 : Fin 1)) :=
  (Ideal.multiReduction_add_single src 0x00000000#32 reduces_S1024x1_S1 hφ hacc (ix1 u)).trans
    (Finset.sum_congr rfl fun k _ => congrArg src (funext fun a => Fin.ext (by
      match a with
      | ⟨0, _⟩ => rfl
      | ⟨1, _⟩ => have h : u.val = 0 := by omega
                  exact h)))

/-- The masked row sum at row i is the diagonal entry g(i, i): every other term of the row is multiplied by 0. -/
theorem pay5_apply (x0 : Vec Ideal S1x1024x64 .f32) (i : Fin 1024) (u : Fin 1) :
    k0_pay5 (F := Ideal) x0 (ix2 i u) = gram (n := 1) x0 0 i i := by
  unfold k0_pay5
  rw [shapeCast_a_a1_apply]
  refine (rowSum_apply _ _ _ i).trans ?_
  refine (Finset.sum_congr rfl fun k _ =>
    (congrArg₂ (· * ·) (pay4_apply x0 i k) (mask_apply i k) :
      _ = gram (n := 1) x0 0 i k * (if i = k then (1 : EReal) else 0))).trans ?_
  simp only [mul_ite, mul_one, mul_zero, Finset.sum_ite_eq, Finset.mem_univ, if_true]

/-- A one-entry vector [1] viewed as [1, 1] reads its entry. -/
theorem shapeCast_1_11_apply {α : Type} (x : (⟨1, ![1]⟩ : Shape).Idx → α)
    (h : (⟨1, ![1]⟩ : Shape).ShapeCasts ⟨2, ![1, 1]⟩) (u v : Fin 1) :
    shapeCast ⟨2, ![1, 1]⟩ x h (ix2 u v) = x (ix1 (0 : Fin 1)) :=
  shapeCast_a_1a_apply x h u v |>.trans (congrArg x (congrArg ix1 (Subsingleton.elim _ _)))

/-- The sum of the squared diagonal entries. -/
theorem pay6_apply (x0 : Vec Ideal S1x1024x64 .f32) (u v : Fin 1) :
    k0_pay6 (F := Ideal) x0 (ix2 u v) = diagSq (n := 1) x0 0 := by
  unfold k0_pay6 diagSq
  rw [shapeCast_1_11_apply]
  refine (colSum_apply _ _ _ 0).trans ?_
  exact Finset.sum_congr rfl fun k _ => congrArg₂ (· * ·) (pay5_apply x0 k 0) (pay5_apply x0 k 0)

/-- The second accumulator's increment: all squared entries minus the squared diagonal ones. -/
theorem pay7_apply (x0 : Vec Ideal S1x1024x64 .f32) (u v : Fin 1) :
    k0_pay7 (F := Ideal) x0 (ix2 u v) = offTerm (n := 1) x0 0 := by
  unfold k0_pay7 offTerm allSq
  refine congrArg₂ (· - ·) ?_ (pay6_apply x0 u v)
  rw [shapeCast_1_11_apply]
  refine (colSum_apply _ _ _ 0).trans ?_
  refine Finset.sum_congr rfl fun i _ => ?_
  rw [shapeCast_a_a1_apply]
  refine (rowSum_apply _ _ _ i).trans ?_
  exact Finset.sum_congr rfl fun j _ => congrArg₂ (· * ·) (pay4_apply x0 i j) (pay4_apply x0 i j)

/-- The first accumulator after the point: what it held plus (1024 − 2·trace) + ∑ᵢ g(i,i)². -/
theorem pay8_apply (x0 : Vec Ideal S1x1024x64 .f32) (acc : Vec Ideal S1x1 .f32) (u v : Fin 1) :
    k0_pay8 (F := Ideal) x0 acc (ix2 u v) = acc (ix2 u v) + diagTerm (n := 1) x0 0 := by
  unfold k0_pay8 diagTerm diagSum
  rw [shapeCast_self]
  refine congrArg₂ (· + ·) rfl (congrArg₂ (· + ·) (congrArg₂ (· - ·) rfl (congrArg₂ (· * ·) rfl ?_)) (pay6_apply x0 u v))
  rw [shapeCast_1_11_apply]
  refine (colSum_apply _ _ _ 0).trans ?_
  exact Finset.sum_congr rfl fun k _ => pay5_apply x0 k 0

/-- The second accumulator after the point: what it held plus the increment. -/
theorem pay1_apply (inc acc : Vec Ideal S1x1 .f32) (y : S1x1.Idx) :
    k0_pay1 (F := Ideal) inc acc y = acc y + inc y := by
  unfold k0_pay1
  rw [shapeCast_self]
  rfl

/-- The reset stores zero. -/
theorem pay2_apply (y : S1x1.Idx) : k0_pay2 (F := Ideal) y = c0 := by
  unfold k0_pay2
  rw [shapeCast_self]
  rfl

theorem pay3_apply (y : S1x1.Idx) : k0_pay3 (F := Ideal) y = c0 := by
  unfold k0_pay3
  rw [shapeCast_self]
  rfl

end Cert.GramLoss.Point

end
-- ==== Proof.KernelPieces.lean ====
import proofs.«164244_j37520834298331_1_alg».proof.Proof.Gen.KernelIdeal.Frame
import Idealize.ShloMosaic.Lib.Pipeline.Value
import Idealize.ShloMosaic.Lib.Tactic

/-!
  What each control case of the kernel body leaves behind, as pure terms.

  The body keeps two running totals in two one-element buffers carried from grid point to grid point. At the first point
  it resets both to zero and then adds the point's contribution to each; at a middle point it adds the contribution to
  what the point before left; at the last point it does the same and then copies both totals into the two outputs.
  The generated frame records, per case, the list of stores that reach each buffer (last first) and reads the buffer
  back through them. Every store here covers its whole one-element buffer, so reading back through the list gives the
  last store's value; where that value was computed from a load of the same buffer after an earlier store in the same
  point (the reset, or the update before the copy-out), the load gives that earlier store's value. The eight statements
  below say this case by case, with the arithmetic left folded in the generated value terms.
-/

noncomputable section

namespace Cert.GramLoss.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- At the first point the first carried buffer is reset and then updated: the update reads the reset value back, so the buffer ends with the update applied to the reset value. -/
theorem sA0 (c : Dev nD) (i : grid0.Coords) (arg1 : Memref sig .tc .vmem S1x1024x64 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S1x1024x64 .f32) :
    sout0_A_0 c i arg1 harg1 arg2 harg2 arg3 harg3 arg4 harg4 arg5 harg5 hc0 hc1 x0 = k0_pay8 x0 (k0_pay2 (F := F)) := by
  unfold sout0_A_0
  rw [View.read_writes_eq_canon _ _ _ (scover0_A_0 c i arg1 harg1 arg2 harg2 arg3 harg3 arg4 harg4 arg5 harg5 hc0 hc1 x0)]
  unfold kernelRun0_A
  dsimp only
  sl_unfold_words
  rw [View.canon_cons_unit_zero (S := S1x1) hz, View.readCov_unit_zero (S := S1x1) _ hz]
  simp only [View.readAt_eq_ld, harg4.read_unread, harg5.read_unread, harg1.read_unread, View.ld_unit_zero (S := S1x1) hz,
    View.ld_unit_zero (S := S1x1024x64) hz3, View.readCov_unit_zero (S := S1x1) _ hz]

/-- At the first point the second carried buffer likewise ends with its update applied to its reset value. -/
theorem sA1 (c : Dev nD) (i : grid0.Coords) (arg1 : Memref sig .tc .vmem S1x1024x64 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S1x1024x64 .f32) :
    sout0_A_1 c i arg1 harg1 arg2 harg2 arg3 harg3 arg4 harg4 arg5 harg5 hc0 hc1 x0 = k0_pay1 (k0_pay7 x0) (k0_pay3 (F := F)) := by
  unfold sout0_A_1
  rw [View.read_writes_eq_canon _ _ _ (scover0_A_1 c i arg1 harg1 arg2 harg2 arg3 harg3 arg4 harg4 arg5 harg5 hc0 hc1 x0)]
  unfold kernelRun0_A
  dsimp only
  sl_unfold_words
  rw [View.canon_cons_unit_zero (S := S1x1) hz, View.readCov_unit_zero (S := S1x1) _ hz]
  simp only [View.readAt_eq_ld, harg4.read_unread, harg5.read_unread, harg1.read_unread, View.ld_unit_zero (S := S1x1) hz,
    View.ld_unit_zero (S := S1x1024x64) hz3, View.readCov_unit_zero (S := S1x1) _ hz]

/-- At a middle point the first carried buffer ends with its update applied to what the point before left in it. -/
theorem sB0 (c : Dev nD) (i : grid0.Coords) (arg1 : Memref sig .tc .vmem S1x1024x64 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S1x1024x64 .f32) (xs0 : Vec F S1x1 .f32) (xs1 : Vec F S1x1 .f32) :
    sout0_B_0 c i arg1 harg1 arg2 harg2 arg3 harg3 arg4 harg4 arg5 harg5 hc0 hc1 x0 xs0 xs1 = k0_pay8 x0 xs0 := by
  unfold sout0_B_0
  rw [View.read_writes_eq_canon _ _ _ (scover0_B_0 c i arg1 harg1 arg2 harg2 arg3 harg3 arg4 harg4 arg5 harg5 hc0 hc1 x0 xs0 xs1)]
  unfold kernelRun0_B
  dsimp only
  sl_unfold_words
  rw [View.canon_unit_zero hz]
  simp only [View.readAt_eq_ld, harg4.read_unread, harg5.read_unread, harg1.read_unread, View.ld_unit_zero (S := S1x1) hz,
    View.ld_unit_zero (S := S1x1024x64) hz3, View.readCov_unit_zero (S := S1x1) _ hz]

/-- At a middle point the second carried buffer ends with its update applied to what the point before left in it. -/
theorem sB1 (c : Dev nD) (i : grid0.Coords) (arg1 : Memref sig .tc .vmem S1x1024x64 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S1x1024x64 .f32) (xs0 : Vec F S1x1 .f32) (xs1 : Vec F S1x1 .f32) :
    sout0_B_1 c i arg1 harg1 arg2 harg2 arg3 harg3 arg4 harg4 arg5 harg5 hc0 hc1 x0 xs0 xs1 = k0_pay1 (k0_pay7 x0) xs1 := by
  unfold sout0_B_1
  rw [View.read_writes_eq_canon _ _ _ (scover0_B_1 c i arg1 harg1 arg2 harg2 arg3 harg3 arg4 harg4 arg5 harg5 hc0 hc1 x0 xs0 xs1)]
  unfold kernelRun0_B
  dsimp only
  sl_unfold_words
  rw [View.canon_unit_zero hz]
  simp only [View.readAt_eq_ld, harg4.read_unread, harg5.read_unread, harg1.read_unread, View.ld_unit_zero (S := S1x1) hz,
    View.ld_unit_zero (S := S1x1024x64) hz3, View.readCov_unit_zero (S := S1x1) _ hz]

/-- At the last point the first carried buffer is updated as at a middle point. -/
theorem sC0 (c : Dev nD) (i : grid0.Coords) (arg1 : Memref sig .tc .vmem S1x1024x64 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1x1024x64 .f32) (xs0 : Vec F S1x1 .f32) (xs1 : Vec F S1x1 .f32) :
    sout0_C_0 c i arg1 harg1 arg2 harg2 arg3 harg3 arg4 harg4 arg5 harg5 hc0 hc1 x0 xs0 xs1 = k0_pay8 x0 xs0 := by
  unfold sout0_C_0
  rw [View.read_writes_eq_canon _ _ _ (scover0_C_0 c i arg1 harg1 arg2 harg2 arg3 harg3 arg4 harg4 arg5 harg5 hc0 hc1 x0 xs0 xs1)]
  unfold kernelRun0_C
  dsimp only
  sl_unfold_words
  rw [View.canon_unit_zero hz]
  simp only [View.readAt_eq_ld, harg4.read_unread, harg5.read_unread, harg1.read_unread, View.ld_unit_zero (S := S1x1) hz,
    View.ld_unit_zero (S := S1x1024x64) hz3, View.readCov_unit_zero (S := S1x1) _ hz]

/-- At the last point the second carried buffer is updated as at a middle point. -/
theorem sC1 (c : Dev nD) (i : grid0.Coords) (arg1 : Memref sig .tc .vmem S1x1024x64 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1x1024x64 .f32) (xs0 : Vec F S1x1 .f32) (xs1 : Vec F S1x1 .f32) :
    sout0_C_1 c i arg1 harg1 arg2 harg2 arg3 harg3 arg4 harg4 arg5 harg5 hc0 hc1 x0 xs0 xs1 = k0_pay1 (k0_pay7 x0) xs1 := by
  unfold sout0_C_1
  rw [View.read_writes_eq_canon _ _ _ (scover0_C_1 c i arg1 harg1 arg2 harg2 arg3 harg3 arg4 harg4 arg5 harg5 hc0 hc1 x0 xs0 xs1)]
  unfold kernelRun0_C
  dsimp only
  sl_unfold_words
  rw [View.canon_unit_zero hz]
  simp only [View.readAt_eq_ld, harg4.read_unread, harg5.read_unread, harg1.read_unread, View.ld_unit_zero (S := S1x1) hz,
    View.ld_unit_zero (S := S1x1024x64) hz3, View.readCov_unit_zero (S := S1x1) _ hz]

/-- At the last point the first output receives the first carried buffer read back after its update: the updated value. -/
theorem oC1 (c : Dev nD) (i : grid0.Coords) (arg1 : Memref sig .tc .vmem S1x1024x64 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1x1024x64 .f32) (xs0 : Vec F S1x1 .f32) (xs1 : Vec F S1x1 .f32) :
    out0_C_1 c i arg1 harg1 arg2 harg2 arg3 harg3 arg4 harg4 arg5 harg5 hc0 hc1 x0 xs0 xs1 = k0_pay8 x0 xs0 := by
  unfold out0_C_1
  rw [View.read_writes_eq_canon _ _ _ (cover0_C_1 c i arg1 harg1 arg2 harg2 arg3 harg3 arg4 harg4 arg5 harg5 hc0 hc1 x0 xs0 xs1)]
  unfold kernelRun0_C
  dsimp only
  sl_unfold_words
  rw [View.canon_unit_zero hz]
  simp only [View.readAt_eq_ld, harg4.read_unread, harg5.read_unread, harg1.read_unread, View.ld_unit_zero (S := S1x1) hz,
    View.ld_unit_zero (S := S1x1024x64) hz3, View.readCov_unit_zero (S := S1x1) _ hz]

/-- At the last point the second output receives the second carried buffer read back after its update: the updated value. -/
theorem oC2 (c : Dev nD) (i : grid0.Coords) (arg1 : Memref sig .tc .vmem S1x1024x64 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1x1024x64 .f32) (xs0 : Vec F S1x1 .f32) (xs1 : Vec F S1x1 .f32) :
    out0_C_2 c i arg1 harg1 arg2 harg2 arg3 harg3 arg4 harg4 arg5 harg5 hc0 hc1 x0 xs0 xs1 = k0_pay1 (k0_pay7 x0) xs1 := by
  unfold out0_C_2
  rw [View.read_writes_eq_canon _ _ _ (cover0_C_2 c i arg1 harg1 arg2 harg2 arg3 harg3 arg4 harg4 arg5 harg5 hc0 hc1 x0 xs0 xs1)]
  unfold kernelRun0_C
  dsimp only
  sl_unfold_words
  rw [View.canon_unit_zero hz]
  simp only [View.readAt_eq_ld, harg4.read_unread, harg5.read_unread, harg1.read_unread, View.ld_unit_zero (S := S1x1) hz,
    View.ld_unit_zero (S := S1x1024x64) hz3, View.readCov_unit_zero (S := S1x1) _ hz]

end Cert.GramLoss.Pieces

end
-- ==== Proof.KernelAcc.lean ====
/-
  The two accumulators across the grid. Point t reads batch t of the input (its block is the stack of height one
  x(t, ·, ·)), so after point n the first scratch holds ∑_{b ≤ n} diagTerm x b and the second ∑_{b ≤ n} offTerm x b:
  the first point stores 0 and adds its own terms, every later point adds its terms to what the point before left,
  and the last point copies both totals into the two outputs.
-/
import proofs.«164244_j37520834298331_1_alg».proof.Proof.Gen.KernelIdeal.Frame
import proofs.«164244_j37520834298331_1_alg».proof.Proof.Spec
import proofs.«164244_j37520834298331_1_alg».proof.Proof.KernelPoint
import proofs.«164244_j37520834298331_1_alg».proof.Proof.KernelPieces
import Idealize.ShloMosaic.Lib.Pipeline.Value

noncomputable section

namespace Cert.GramLoss.Acc

open Idealize.ShloMosaic Idealize.ShloMosaic.TcCoe Idealize.SL.Sem Idealize.ShloMosaic.ValueIdx
open Cert.KernelIdeal Cert.KernelIdeal.Gen Cert.GramLoss Cert.GramLoss.Point

variable (m : (ℓ : Loc nD τ sig) → Buf (Elt Ideal) ℓ)

/-- The input array on core c. -/
abbrev xin (c : Dev nD) : Stack 64 := m ((c.tc : Thread nD τ).loc main_arg0)

/-- A grid point as a batch number. -/
abbrev batchOf (t : Fin cfg0.N) : Fin 64 := ⟨t.val, lt_of_lt_of_eq t.isLt N_0⟩

/-- The input window's block index at point t is (t, 0, 0). -/
theorem index_facts : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The block point t reads is batch t of the input: entry (0, i, k) of the block is x(t, i, k). -/
theorem iblk_apply (c : Dev nD) (t : Fin cfg0.N) (i : Fin 1024) (k : Fin 64) :
    (iblk m c 0 t : Stack 1) (ix3 0 i k) = xin m c (ix3 (batchOf t) i k) := by
  obtain ⟨h0, h1, h2⟩ := index_facts t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val; rw [h0]; omega
  | ⟨1, _⟩ => show win0_0.index t 1 * 1024 + 1 * i.val = i.val; rw [h1]; omega
  | ⟨2, _⟩ => show win0_0.index t 2 * 64 + 1 * k.val = k.val; rw [h2]; omega

/-- So the block's per-batch terms are the input's at batch t. -/
theorem diagTerm_iblk (c : Dev nD) (t : Fin cfg0.N) :
    diagTerm (n := 1) (iblk m c 0 t : Stack 1) 0 = diagTerm (xin m c) (batchOf t) :=
  diagTerm_congr _ _ _ _ (iblk_apply m c t)

theorem offTerm_iblk (c : Dev nD) (t : Fin cfg0.N) :
    offTerm (n := 1) (iblk m c 0 t : Stack 1) 0 = offTerm (xin m c) (batchOf t) :=
  offTerm_congr _ _ _ _ (iblk_apply m c t)

/-- The block at point t, at its literal type. -/
abbrev xblk (c : Dev nD) (t : Fin cfg0.N) : Vec Ideal S1x1024x64 .f32 := iblk m c 0 t

/-- A point's step on a constant accumulator. -/
theorem pay8_const (x0 : Vec Ideal S1x1024x64 .f32) (a : EReal) :
    k0_pay8 (F := Ideal) x0 (fun _ => a) = fun _ => a + diagTerm (n := 1) x0 0 :=
  funext fun y => by rw [idx11 y]; exact pay8_apply x0 _ 0 0

theorem pay1_const (x0 : Vec Ideal S1x1024x64 .f32) (a : EReal) :
    k0_pay1 (F := Ideal) (k0_pay7 x0) (fun _ => a) = fun _ => a + offTerm (n := 1) x0 0 :=
  funext fun y => by rw [pay1_apply, idx11 y, pay7_apply]

/-- The first point's step: onto the zero the reset stored. -/
theorem pay8_reset (x0 : Vec Ideal S1x1024x64 .f32) :
    k0_pay8 (F := Ideal) x0 (k0_pay2 (F := Ideal)) = fun _ => c0 + diagTerm (n := 1) x0 0 :=
  funext fun y => by rw [idx11 y, pay8_apply, pay2_apply]

theorem pay1_reset (x0 : Vec Ideal S1x1024x64 .f32) :
    k0_pay1 (F := Ideal) (k0_pay7 x0) (k0_pay3 (F := Ideal)) = fun _ => c0 + offTerm (n := 1) x0 0 :=
  funext fun y => by rw [pay1_apply, pay3_apply, idx11 y, pay7_apply]

/-- Batch b's terms by batch NUMBER (zero past the last batch), and their running totals. -/
def dAt (c : Dev nD) (b : ℕ) : EReal := if h : b < 64 then diagTerm (xin m c) ⟨b, h⟩ else 0
def oAt (c : Dev nD) (b : ℕ) : EReal := if h : b < 64 then offTerm (xin m c) ⟨b, h⟩ else 0
def accD (c : Dev nD) (n : ℕ) : EReal := ∑ b ∈ Finset.range (n + 1), dAt m c b
def accO (c : Dev nD) (n : ℕ) : EReal := ∑ b ∈ Finset.range (n + 1), oAt m c b

theorem dAt_point (c : Dev nD) (t : Fin cfg0.N) : dAt m c t.val = diagTerm (n := 1) (xblk m c t) 0 :=
  (dif_pos (batchOf t).isLt).trans (diagTerm_iblk m c t).symm
theorem oAt_point (c : Dev nD) (t : Fin cfg0.N) : oAt m c t.val = offTerm (n := 1) (xblk m c t) 0 :=
  (dif_pos (batchOf t).isLt).trans (offTerm_iblk m c t).symm

theorem c0_zero : c0 = 0 := Ideal.ofBits_zero_f32

/-- THE INVARIANT: after point n the two scratch buffers hold the running totals. -/
theorem scratch_eq (c : Dev nD) : ∀ (n : ℕ) (h : n < cfg0.N),
    (outsAt0 m c n h).2.2.1 = (fun _ => accD m c n) ∧ (outsAt0 m c n h).2.2.2 = (fun _ => accO m c n)
  | 0, h => by
    rw [outsAt0_A m c ⟨0, h⟩ rfl (fun hh => by dsimp only at hh; omega)]
    dsimp only
    refine ⟨(Pieces.sA0 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) _ _ (xblk m c ⟨0, h⟩)).trans ((pay8_reset (xblk m c ⟨0, h⟩)).trans ?_),
      (Pieces.sA1 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) _ _ (xblk m c ⟨0, h⟩)).trans ((pay1_reset (xblk m c ⟨0, h⟩)).trans ?_)⟩
    · funext _; rw [c0_zero, zero_add, ← dAt_point m c ⟨0, h⟩]; unfold accD; rw [Finset.sum_range_one]
    · funext _; rw [c0_zero, zero_add, ← oAt_point m c ⟨0, h⟩]; unfold accO; rw [Finset.sum_range_one]
  | n + 1, h => by
    have hN : cfg0.N = 64 := N_0
    have ih := scratch_eq c n (Nat.lt_of_succ_lt h)
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      refine ⟨(Pieces.sC0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ (xblk m c ⟨n + 1, h⟩) _ _).trans ?_, (Pieces.sC1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ (xblk m c ⟨n + 1, h⟩) _ _).trans ?_⟩
      · show k0_pay8 (F := Ideal) (xblk m c ⟨n + 1, h⟩) (outsAt0 m c n _).2.2.1 = _
        rw [ih.1]
        refine (pay8_const (xblk m c ⟨n + 1, h⟩) _).trans ?_
        funext _; rw [← dAt_point m c ⟨n + 1, h⟩]; unfold accD; rw [Finset.sum_range_succ _ (n + 1)]
      · show k0_pay1 (F := Ideal) (k0_pay7 (xblk m c ⟨n + 1, h⟩)) (outsAt0 m c n _).2.2.2 = _
        rw [ih.2]
        refine (pay1_const (xblk m c ⟨n + 1, h⟩) _).trans ?_
        funext _; rw [← oAt_point m c ⟨n + 1, h⟩]; unfold accO; rw [Finset.sum_range_succ _ (n + 1)]
    · rw [outsAt0_B m c ⟨n + 1, h⟩ h0 h1]
      dsimp only
      refine ⟨(Pieces.sB0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ (xblk m c ⟨n + 1, h⟩) _ _).trans ?_, (Pieces.sB1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ (xblk m c ⟨n + 1, h⟩) _ _).trans ?_⟩
      · show k0_pay8 (F := Ideal) (xblk m c ⟨n + 1, h⟩) (outsAt0 m c n _).2.2.1 = _
        rw [ih.1]
        refine (pay8_const (xblk m c ⟨n + 1, h⟩) _).trans ?_
        funext _; rw [← dAt_point m c ⟨n + 1, h⟩]; unfold accD; rw [Finset.sum_range_succ _ (n + 1)]
      · show k0_pay1 (F := Ideal) (k0_pay7 (xblk m c ⟨n + 1, h⟩)) (outsAt0 m c n _).2.2.2 = _
        rw [ih.2]
        refine (pay1_const (xblk m c ⟨n + 1, h⟩) _).trans ?_
        funext _; rw [← oAt_point m c ⟨n + 1, h⟩]; unfold accO; rw [Finset.sum_range_succ _ (n + 1)]

/-- At the last point the two outputs receive the two totals. -/
theorem outputs_eq (c : Dev nD) : ∀ (n : ℕ) (h : n < cfg0.N), n % 64 = 63 →
    (outsAt0 m c n h).1 = (fun _ => accD m c n) ∧ (outsAt0 m c n h).2.1 = (fun _ => accO m c n)
  | 0, h, h1 => absurd h1 (by decide)
  | n + 1, h, h1 => by
    have hN : cfg0.N = 64 := N_0
    have ih := scratch_eq m c n (Nat.lt_of_succ_lt h)
    have h0 : ¬(⟨n + 1, h⟩ : Fin cfg0.N).val % 64 = 0 := by dsimp only; omega
    rw [outsAt0_C m c ⟨n + 1, h⟩ h0 h1]
    dsimp only
    refine ⟨(Pieces.oC1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ (xblk m c ⟨n + 1, h⟩) _ _).trans ?_, (Pieces.oC2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ (xblk m c ⟨n + 1, h⟩) _ _).trans ?_⟩
    · show k0_pay8 (F := Ideal) (xblk m c ⟨n + 1, h⟩) (outsAt0 m c n _).2.2.1 = _
      rw [ih.1]
      refine (pay8_const (xblk m c ⟨n + 1, h⟩) _).trans ?_
      funext _; rw [← dAt_point m c ⟨n + 1, h⟩]; unfold accD; rw [Finset.sum_range_succ _ (n + 1)]
    · show k0_pay1 (F := Ideal) (k0_pay7 (xblk m c ⟨n + 1, h⟩)) (outsAt0 m c n _).2.2.2 = _
      rw [ih.2]
      refine (pay1_const (xblk m c ⟨n + 1, h⟩) _).trans ?_
      funext _; rw [← oAt_point m c ⟨n + 1, h⟩]; unfold accO; rw [Finset.sum_range_succ _ (n + 1)]

/-- The totals after the last point are the sums over all 64 batches. -/
theorem accD_last (c : Dev nD) : accD m c 63 = ∑ b : Fin 64, diagTerm (xin m c) b := by
  unfold accD
  rw [← Fin.sum_univ_eq_sum_range (fun b => dAt m c b) 64]
  exact Finset.sum_congr rfl fun b _ => dif_pos b.isLt

theorem accO_last (c : Dev nD) : accO m c 63 = ∑ b : Fin 64, offTerm (xin m c) b := by
  unfold accO
  rw [← Fin.sum_univ_eq_sum_range (fun b => oAt m c b) 64]
  exact Finset.sum_congr rfl fun b _ => dif_pos b.isLt

end Cert.GramLoss.Acc

end
-- ==== Proof.KernelRun.lean ====
/-
  The kernel's run read as a value: the two outputs are written back once, after the last point, each a [1, 1]
  array holding one of the two totals; the host lines after the call turn them into (D + λ·O) / 64, which is the loss
  of the input, batch by batch.
-/
import proofs.«164244_j37520834298331_1_alg».proof.Proof.Gen.KernelIdeal.Frame
import proofs.«164244_j37520834298331_1_alg».proof.Proof.Spec
import proofs.«164244_j37520834298331_1_alg».proof.Proof.KernelAcc
import Idealize.ShloMosaic.Lib.Pipeline.Value
import Idealize.ShloMosaic.Lib.StableHlo.Run
import Idealize.ShloMosaic.Lib.Tactic

noncomputable section

namespace Cert.GramLoss.Run

open Idealize.ShloMosaic Idealize.ShloMosaic.TcCoe Idealize.SL.Sem Idealize.ShloMosaic.ValueIdx
open Idealize.ShloMosaic.Pipeline (Dat)
open Cert.KernelIdeal Cert.KernelIdeal.Gen Cert.GramLoss Cert.GramLoss.Acc

variable (m : (ℓ : Loc nD τ sig) → Buf (Elt Ideal) ℓ) (ρ : Dev nD → PrngReg)

theorem hN : cfg0.N = 64 := N_0

/-- The last grid point. -/
abbrev tLast : Fin cfg0.N := ⟨63, by rw [hN]; decide⟩

/-- The one write-back of output 1, after the last point, writes the first total. -/
theorem flushed1 (c : Dev nD) (t : Fin cfg0.N) (hf : (cfg0.win 1).flush t = true) :
    (dats m 0 c).flushed 1 t = ((cfg0.win 1).blk t).view.read (Elt Ideal) (fun _ => accD m c 63) := by
  have h63 : t.val % 64 = 63 := (flush0_1 t).mp hf
  have hv : t.val = 63 := by have := lt_of_lt_of_eq t.isLt hN; omega
  show (cfg0.win 1).cut (grid0.coords t) ((dats m 0 c).after 1 t) = _
  rw [after0_1, (outputs_eq m c t.val t.isLt h63).1, hv]
  rfl

theorem flushed2 (c : Dev nD) (t : Fin cfg0.N) (hf : (cfg0.win 2).flush t = true) :
    (dats m 0 c).flushed 2 t = ((cfg0.win 2).blk t).view.read (Elt Ideal) (fun _ => accO m c 63) := by
  have h63 : t.val % 64 = 63 := (flush0_2 t).mp hf
  have hv : t.val = 63 := by have := lt_of_lt_of_eq t.isLt hN; omega
  show (cfg0.win 2).cut (grid0.coords t) ((dats m 0 c).after 2 t) = _
  rw [after0_2, (outputs_eq m c t.val t.isLt h63).2, hv]
  rfl

/-- The last point's block of output 1 is the whole [1, 1] array. -/
theorem cover1 (c : Dev nD) (i : ((cfg0.win 1).arr.view.loc (c.tc : Thread nD τ)).2.ty.Idx) :
    ∃ t : Fin cfg0.N, (cfg0.win 1).flush t = true ∧ i ∈ ((cfg0.win 1).blk t).view.set :=
  ⟨tLast, (flush0_1 tLast).mpr rfl, by
    show i ∈ ((View.whole main_call0_v0_0).slice (win0_1.rect tLast)).set
    rw [View.set_slice_whole, Rect.mem_set_unit]
    intro a
    have h0 : (i 0 : Nat) < 1 := (i 0).isLt
    have h1 : (i 1 : Nat) < 1 := (i 1).isLt
    match a with
    | ⟨0, _⟩ => show win0_1.index tLast 0 * win0_1.size 0 ≤ (i 0 : Nat) ∧ (i 0 : Nat) < win0_1.index tLast 0 * win0_1.size 0 + win0_1.xsize (grid0.coords tLast) 0
                rw [show win0_1.index tLast 0 * win0_1.size 0 = 0 from by decide +kernel, show win0_1.xsize (grid0.coords tLast) 0 = 1 from by decide +kernel]; omega
    | ⟨1, _⟩ => show win0_1.index tLast 1 * win0_1.size 1 ≤ (i 1 : Nat) ∧ (i 1 : Nat) < win0_1.index tLast 1 * win0_1.size 1 + win0_1.xsize (grid0.coords tLast) 1
                rw [show win0_1.index tLast 1 * win0_1.size 1 = 0 from by decide +kernel, show win0_1.xsize (grid0.coords tLast) 1 = 1 from by decide +kernel]; omega⟩

theorem cover2 (c : Dev nD) (i : ((cfg0.win 2).arr.view.loc (c.tc : Thread nD τ)).2.ty.Idx) :
    ∃ t : Fin cfg0.N, (cfg0.win 2).flush t = true ∧ i ∈ ((cfg0.win 2).blk t).view.set :=
  ⟨tLast, (flush0_2 tLast).mpr rfl, by
    show i ∈ ((View.whole main_call0_v0_1).slice (win0_2.rect tLast)).set
    rw [View.set_slice_whole, Rect.mem_set_unit]
    intro a
    have h0 : (i 0 : Nat) < 1 := (i 0).isLt
    have h1 : (i 1 : Nat) < 1 := (i 1).isLt
    match a with
    | ⟨0, _⟩ => show win0_2.index tLast 0 * win0_2.size 0 ≤ (i 0 : Nat) ∧ (i 0 : Nat) < win0_2.index tLast 0 * win0_2.size 0 + win0_2.xsize (grid0.coords tLast) 0
                rw [show win0_2.index tLast 0 * win0_2.size 0 = 0 from by decide +kernel, show win0_2.xsize (grid0.coords tLast) 0 = 1 from by decide +kernel]; omega
    | ⟨1, _⟩ => show win0_2.index tLast 1 * win0_2.size 1 ≤ (i 1 : Nat) ∧ (i 1 : Nat) < win0_2.index tLast 1 * win0_2.size 1 + win0_2.xsize (grid0.coords tLast) 1
                rw [show win0_2.index tLast 1 * win0_2.size 1 = 0 from by decide +kernel, show win0_2.xsize (grid0.coords tLast) 1 = 1 from by decide +kernel]; omega⟩

/-- So the two result arrays of the call end holding the two totals. -/
theorem final1 (c : Dev nD) : (dats m 0 c).arrAt 1 cfg0.N = fun _ => accD m c 63 :=
  (dats m 0 c).arrAt_eq_of_cover 1 (fun _ => accD m c 63) (flushed1 m c) (cover1 c)

theorem final2 (c : Dev nD) : (dats m 0 c).arrAt 2 cfg0.N = fun _ => accO m c 63 :=
  (dats m 0 c).arrAt_eq_of_cover 2 (fun _ => accO m c 63) (flushed2 m c) (cover2 c)

/-- The host lines after the call: the two [1, 1] arrays read as scalars, combined as (D + λ·O) / 64. -/
theorem result_eq (c : Dev nD) :
    Pipeline.afterTail₀ cfgs (dats m) 0 (V0 m) [hostOps1] c main_v0 = fun _ => combine (accD m c 63) (accO m c 63) := by
  unfold Pipeline.afterTail₀
  show StableHlo.after hostOps1 _ (Proc.devRef .tc main_v0) = _
  after_results
  show Host.divf (F := Ideal) (addf (F := Ideal)
        (shapeCast S_ (Pipeline.withArrays spec0 c (V0 m c) (fun w => (dats m 0 c).arrAt w cfg0.N)
          (Proc.devRef .tc (Pipeline.arrRef spec0 1)) : S1x1.Idx → EReal) shapeCasts_S1x1_S_)
        (mulf (F := Ideal) (constant (F := Ideal) S_ .f32 0x3DCCCCCD#32)
          (shapeCast S_ (Pipeline.withArrays spec0 c (V0 m c) (fun w => (dats m 0 c).arrAt w cfg0.N)
            (Proc.devRef .tc (Pipeline.arrRef spec0 2)) : S1x1.Idx → EReal) shapeCasts_S1x1_S_)))
      (constant (F := Ideal) S_ .f32 0x42800000#32) = _
  rw [Pipeline.withArrays_arr spec0 launch0.win.arr_inj c _ _ 1, Pipeline.withArrays_arr spec0 launch0.win.arr_inj c _ _ 2,
    final1, final2]
  rfl

/-- The kernel's run, read: the result holds the loss of the input, the input is unchanged. -/
theorem run : θ_run defs (onTc (τ := τ) (main (F := Ideal))) ⟨m, fun _ => 0, ρ⟩ fun r => ∀ c : Dev nD,
      r.2.mem ((c.tc : Thread nD τ).loc main_v0) = (fun _ => loss (xin m c))
      ∧ r.2.mem ((c.tc : Thread nD τ).loc main_arg0) = m ((c.tc : Thread nD τ).loc main_arg0) :=
  (θ_run defs _ _).mono (fun _ h c =>
    ⟨((h c).2 main_v0 (by decide)).trans ((result_eq m c).trans (by unfold loss; rw [accD_last, accO_last])),
      ((h c).1 0).trans (((dats m 0 c).arrAt_in 0 rfl _).trans ((A_eq m c 0).trans (V_main_arg0 m c)))⟩)
    (run_main m ρ)

end Cert.GramLoss.Run

end
-- ==== Proof.RefDiag.lean ====
import proofs.«164244_j37520834298331_1_alg».proof.Proof.Gen.ReferenceIdeal.Read
import Idealize.ShloMosaic.Lib.Pipeline.Value
import Idealize.ShloMosaic.Lib.ValueIdx
import Idealize.ShloMosaic.Lib.StableHlo.Predicate

/-!
# The reference's diagonal, read at an index

The reference forms the Gram matrices `m[b, i, k] = ∑ₗ x[b, i, l] · x[b, k, l]` and takes their diagonals
with a gather whose start indices are the `[1024, 2]` integer array with row `i` equal to `(i, i)`.
Here that gather is read at a result index `(b, i)`: it is `m[b, i, i]`.

* The start-index array: each column is an `iota` passed through `select (iota < 0) (iota + 1024) iota`
  (the wrap-around of a negative index). A word `ofNat i` with `i < 1024` is not negative as a signed
  32-bit integer, so the select keeps it: both columns hold `ofNat i` at row `i`.
* The gather: operand axis 0 is the result's offset axis (slice size 64, start 0), so its coordinate is
  the result's first coordinate; operand axes 1 and 2 are collapsed, and their coordinates are the two
  components of the start index of row `i`, read signed and clamped into `[0, 1023]`; both are `i`.
-/

noncomputable section

namespace Cert.GramLoss.RefDiag

open Idealize.ShloMosaic Idealize.ShloMosaic.ValueIdx Cert.ReferenceIdeal Cert.ReferenceIdeal.Gen Cert.ReferenceIdeal.Read
open Idealize.ShloMosaic.StableHlo.Predicate (slt_iff_toNat toInt_ofNat_small)

variable {F : FTy → Type} [FloatOps F]

local notation "gd" => gather_S64x1024x1024_S1024x2_S64x1024_0_12_n_n_12_1_6411

/-! ## The start indices -/

/-- A word below 1024 is not negative, so the wrap-around `select (n < 0) (n + 1024) n` keeps it. -/
theorem wrap_select (n : Nat) (hn : n < 1024) :
    Scalar.select (IntOp.cmpi .slt (BitVec.ofNat 32 n) 0#32) (IntOp.addi (BitVec.ofNat 32 n) 1024#32) (BitVec.ofNat 32 n)
      = BitVec.ofNat 32 n := by
  have hlt : (BitVec.ofNat 32 n).toNat < 2 ^ 31 := by
    rw [BitVec.toNat_ofNat]; omega
  have hc : ¬ IntOp.cmpi .slt (BitVec.ofNat 32 n) 0#32 = 1#1 := fun h =>
    absurd ((slt_iff_toNat hlt (by decide)).1 h) (by simp)
  exact if_neg hc

/-- That word read as a signed integer and clamped into `[0, 1023]` is `n`. -/
theorem clamp_word (n : Nat) (hn : n < 1024) : min (BitVec.ofNat 32 n).toInt.toNat 1023 = n := by
  rw [toInt_ofNat_small n (by omega), Int.toNat_natCast]
  omega

/-- The first column's vector before it is made a column: position `k` holds the word `k`. -/
theorem col0_at (k : S1024.Idx) : val_main_call0_v6 (F := F) k = BitVec.ofNat 32 (k 0).val := by
  rw [val_main_call0_v6_apply, val_main_call0_v3_apply, val_main_call0_v5_apply, val_main_call0_v0_apply,
    val_main_call0_v2_apply, val_main_call0_c_apply, val_main_call0_v4_apply, val_main_call0_c_0_apply]
  exact wrap_select _ (k 0).isLt

/-- The second column's vector, likewise. -/
theorem col1_at (k : S1024.Idx) : val_main_call0_v11 (F := F) k = BitVec.ofNat 32 (k 0).val := by
  rw [val_main_call0_v11_apply, val_main_call0_v8_apply, val_main_call0_v10_apply, val_main_call0_v1_apply,
    val_main_call0_v7_apply, val_main_call0_c_1_apply, val_main_call0_v9_apply, val_main_call0_c_2_apply]
  exact wrap_select _ (k 0).isLt

/-- The start-index array at `(i, 0)`: the joined axis's coordinate falls in the first piece. -/
theorem starts_at_zero (i : Fin 1024) :
    val_main_call0_v14 (F := F) (ix2 i 0 : S1024x2.Idx) = BitVec.ofNat 32 i.val := by
  unfold val_main_call0_v14
  rw [concatenate_pair_apply_left (t := S1024x2) (s₁ := S1024x1) (s₂ := S1024x1) (1 : Fin 2) _ _
    concatenates_S1024x1_S1024x1_S1024x2_d1 (ix2 i 0 : S1024x2.Idx) rfl
    (ix2 i 0 : S1024x1.Idx) (fun b => match b with | ⟨0, _⟩ => rfl | ⟨1, _⟩ => rfl)]
  rw [val_main_call0_v12_apply, col0_at]

/-- The start-index array at `(i, 1)`: the coordinate falls in the second piece, at its position 0. -/
theorem starts_at_one (i : Fin 1024) :
    val_main_call0_v14 (F := F) (ix2 i 1 : S1024x2.Idx) = BitVec.ofNat 32 i.val := by
  unfold val_main_call0_v14
  rw [concatenate_pair_apply_right (t := S1024x2) (s₁ := S1024x1) (s₂ := S1024x1) (1 : Fin 2) _ _
    concatenates_S1024x1_S1024x1_S1024x2_d1 (ix2 i 1 : S1024x2.Idx) rfl rfl
    (ix2 i 0 : S1024x1.Idx) (fun b => match b with | ⟨0, _⟩ => fun _ => rfl | ⟨1, _⟩ => fun h => absurd rfl h) rfl]
  rw [val_main_call0_v13_apply, col1_at]

/-! ## The gather's operand index -/

/-- Where result index `j` reads the first component of its start index: row `j 1`, column 0. -/
theorem siIdx_zero (j : S64x1024.Idx) (h : List.idxOf (1 : Fin 3) (gd).startIndexMap < (gd).startIndexMap.length) :
    (gd).siIdx j ⟨List.idxOf (1 : Fin 3) (gd).startIndexMap, h⟩ = (ix2 (j 1) 0 : S1024x2.Idx) := by
  funext b; refine Fin.ext ?_
  match b with
  | ⟨0, _⟩ => rfl
  | ⟨1, _⟩ => rfl

/-- Where it reads the second component: row `j 1`, column 1. -/
theorem siIdx_one (j : S64x1024.Idx) (h : List.idxOf (2 : Fin 3) (gd).startIndexMap < (gd).startIndexMap.length) :
    (gd).siIdx j ⟨List.idxOf (2 : Fin 3) (gd).startIndexMap, h⟩ = (ix2 (j 1) 1 : S1024x2.Idx) := by
  funext b; refine Fin.ext ?_
  match b with
  | ⟨0, _⟩ => rfl
  | ⟨1, _⟩ => rfl

/-- The operand index of result index `j`, for any start indices whose row `j 1` clamps to `(j 1, j 1)`:
    axis 0 carries the offset coordinate `j 0` (start 0), axes 1 and 2 the clamped start components
    (offset 0); no axis is a batching one. -/
theorem operandIdx_diag {w : Nat} (idx : IVec S1024x2 w) (j : S64x1024.Idx)
    (h0 : min (idx (ix2 (j 1) 0 : S1024x2.Idx)).toInt.toNat 1023 = (j 1).val)
    (h1 : min (idx (ix2 (j 1) 1 : S1024x2.Idx)).toInt.toNat 1023 = (j 1).val) :
    (gd).operandIdx j idx = (ix3 (j 0) (j 1) (j 1) : S64x1024x1024.Idx) := by
  funext a
  refine Fin.ext ?_
  show (gd).start j idx a + (gd).batchCoord j a + (gd).offCoord j a = _
  rw [GatherDims.batchCoord_eq_zero _ _ _ List.not_mem_nil, Nat.add_zero]
  match a with
  | ⟨0, _⟩ =>
    have hs : (gd).start j idx (0 : Fin 3) = 0 := by
      unfold GatherDims.start
      rw [dif_neg (show ¬ (0 : Fin 3) ∈ (gd).startIndexMap by decide)]
    have ho : (gd).offCoord j (0 : Fin 3) = (j 0).val := by
      unfold GatherDims.offCoord
      rw [dif_pos (show (0 : Fin 3) ∈ (gd).sKept by decide)]
      rfl
    show (gd).start j idx (0 : Fin 3) + (gd).offCoord j (0 : Fin 3) = (j 0).val
    rw [hs, ho, Nat.zero_add]
  | ⟨1, _⟩ =>
    have ho : (gd).offCoord j (1 : Fin 3) = 0 :=
      GatherDims.offCoord_eq_zero _ _ _ (show (1 : Fin 3) ∉ (gd).sKept by decide)
    have hs : (gd).start j idx (1 : Fin 3) = (j 1).val := by
      unfold GatherDims.start
      rw [dif_pos (show (1 : Fin 3) ∈ (gd).startIndexMap by decide), siIdx_zero]
      exact h0
    show (gd).start j idx (1 : Fin 3) + (gd).offCoord j (1 : Fin 3) = (j 1).val
    rw [hs, ho, Nat.add_zero]
  | ⟨2, _⟩ =>
    have ho : (gd).offCoord j (2 : Fin 3) = 0 :=
      GatherDims.offCoord_eq_zero _ _ _ (show (2 : Fin 3) ∉ (gd).sKept by decide)
    have hs : (gd).start j idx (2 : Fin 3) = (j 1).val := by
      unfold GatherDims.start
      rw [dif_pos (show (2 : Fin 3) ∈ (gd).startIndexMap by decide), siIdx_one]
      exact h1
    show (gd).start j idx (2 : Fin 3) + (gd).offCoord j (2 : Fin 3) = (j 1).val
    rw [hs, ho, Nat.add_zero]

/-! ## The diagonal -/

/-- THE DIAGONAL READ AT `(b, i)`: the Gram matrix of batch `b` at `(i, i)`. -/
theorem diag_apply (x0 : (⟨S64x1024x64, .f32⟩ : BufTy).Contents (Elt F)) (j : S64x1024.Idx) :
    val_main_v1 (F := F) x0 j = val_main_v0 (F := F) x0 (ix3 (j 0) (j 1) (j 1)) := by
  unfold val_main_v1 Host.gather
  rw [operandIdx_diag (val_main_call0_v14 (F := F)) j
    ((congrArg (fun v : BitVec 32 => min v.toInt.toNat 1023) (starts_at_zero (F := F) (j 1))).trans
      (clamp_word _ (j 1).isLt))
    ((congrArg (fun v : BitVec 32 => min v.toInt.toNat 1023) (starts_at_one (F := F) (j 1))).trans
      (clamp_word _ (j 1).isLt))]

end Cert.GramLoss.RefDiag

end
-- ==== Proof.RefValue.lean ====
import proofs.«164244_j37520834298331_1_alg».proof.Proof.Gen.ReferenceIdeal.Read
import proofs.«164244_j37520834298331_1_alg».proof.Proof.Spec
import proofs.«164244_j37520834298331_1_alg».proof.Proof.RefDiag
import Idealize.ShloMosaic.PureOps.Ideal
import Idealize.ShloMosaic.Lib.ValueIdx

/-!
# The reference's result is the flat form of the loss

The reference's last value, read through its operations one at a time, is the specification's `flatLoss`:
the dot_general's element `(b, i, j)` is the Gram entry `g_b(i, j)`, the gathered diagonal's element `(b, i)` is
`g_b(i, i)`, the three float sums run over whole index sets from the pattern of 0, and the scalar tail is
`(D + λ · (Q − S)) / 64`.
-/

noncomputable section

namespace Cert.GramLoss.RefValue

open Idealize.ShloMosaic Idealize.ShloMosaic.ValueIdx Cert.ReferenceIdeal Cert.ReferenceIdeal.Gen Cert.ReferenceIdeal.Read Cert.GramLoss

/-- The dot_general's element `(b, i, j)` is the Gram entry: the inner product of rows `i` and `j` of batch `b`. -/
theorem v0_eq_gram (x0 : (⟨S64x1024x64, .f32⟩ : BufTy).Contents (Elt Ideal)) (i : S64x1024x1024.Idx) :
    val_main_v0 (F := Ideal) x0 i = gram (n := 64) x0 (i 0) (i 1) (i 2) := by
  rw [val_main_v0_apply]
  unfold gram
  refine Finset.sum_congr rfl fun k _ => ?_
  have el : lidx_main_v0 i k = (ix3 (i 0) (i 1) k : S64x1024x64.Idx) := funext fun a => Fin.ext (by
    match a with
    | ⟨0, _⟩ => rfl
    | ⟨1, _⟩ => rfl
    | ⟨2, _⟩ => rfl)
  have er : ridx_main_v0 i k = (ix3 (i 0) (i 2) k : S64x1024x64.Idx) := funext fun a => Fin.ext (by
    match a with
    | ⟨0, _⟩ => rfl
    | ⟨1, _⟩ => rfl
    | ⟨2, _⟩ => rfl)
  rw [el, er]

/-- The gathered diagonal's element `(b, i)` is the Gram entry `(i, i)` of batch `b`. -/
theorem v1_eq_gram (x0 : (⟨S64x1024x64, .f32⟩ : BufTy).Contents (Elt Ideal)) (j : S64x1024.Idx) :
    val_main_v1 (F := Ideal) x0 j = gram (n := 64) x0 (j 0) (j 1) (j 1) :=
  (RefDiag.diag_apply x0 j).trans (v0_eq_gram x0 _)

/-- THE REFERENCE'S RESULT: the loss over the flat totals. -/
theorem ref_eq (x0 : (⟨S64x1024x64, .f32⟩ : BufTy).Contents (Elt Ideal)) (i : S_.Idx) :
    val_main_v15 (F := Ideal) x0 i = flatLoss x0 := by
  -- the summands, each read at an index
  have h2 : ∀ j : S64x1024.Idx, val_main_v2 (F := Ideal) x0 j
      = gram (n := 64) x0 (j 0) (j 1) (j 1) * gram (n := 64) x0 (j 0) (j 1) (j 1) := fun j => by
    rw [val_main_v2_apply, v1_eq_gram x0 j]; rfl
  have h7 : ∀ j : S64x1024.Idx, val_main_v7 (F := Ideal) x0 j
      = (c1 - c2 * gram (n := 64) x0 (j 0) (j 1) (j 1))
        + gram (n := 64) x0 (j 0) (j 1) (j 1) * gram (n := 64) x0 (j 0) (j 1) (j 1) := fun j => by
    rw [val_main_v7_apply, val_main_v6_apply, val_main_v5_apply, val_main_cst_0_apply, val_main_v4_apply,
      val_main_v3_apply, val_main_cst_apply, h2 j, v1_eq_gram x0 j]
    rfl
  have h9 : ∀ j : S64x1024x1024.Idx, val_main_v9 (F := Ideal) x0 j
      = gram (n := 64) x0 (j 0) (j 1) (j 2) * gram (n := 64) x0 (j 0) (j 1) (j 2) := fun j => by
    rw [val_main_v9_apply, v0_eq_gram x0 j]; rfl
  -- the scalar tail and the three sums
  rw [val_main_v15_apply, val_main_v14_apply, val_main_v8_apply, val_main_v13_apply, val_main_v12_apply,
    val_main_v10_apply, val_main_v11_apply, val_main_cst_5_apply, val_main_cst_4_apply, val_main_cst_1_apply,
    val_main_cst_2_apply, val_main_cst_3_apply,
    Finset.sum_congr rfl (fun j _ => h7 j), Finset.sum_congr rfl (fun j _ => h9 j), Finset.sum_congr rfl (fun j _ => h2 j)]
  unfold flatLoss combine flatDiag flatAllSq flatDiagSq
  rfl

end Cert.GramLoss.RefValue

end
-- ==== Proof.Algebra.lean ====
import proofs.«164244_j37520834298331_1_alg».proof.Proof.Spec
import Idealize.ShloMosaic.PureOps.Ideal.Laws
import Idealize.ShloMosaic.Lib.ValueIdx
import Mathlib.Data.EReal.Operations
import Mathlib.Algebra.BigOperators.Fin
import Mathlib.Algebra.BigOperators.Ring.Finset

/-!
  Two arrangements of one sum.

  The loss is written once batch by batch, each batch contributing (1024 − 2·trace) + ∑ᵢ g(i,i)² and
  ∑ᵢ∑ⱼ g(i,j)² − ∑ᵢ g(i,i)², and once from three totals taken over whole index sets, each started from 0. Over the
  extended reals a subtraction cannot be regrouped freely (⊤ − ⊤ is a convention, not an inverse), so the two forms are
  compared under the hypothesis that every entry of x is a real. Then every Gram entry, every partial sum and every
  constant involved is the image of a real, both sides are images of real expressions, and the comparison is an identity
  in ℝ: ∑ᵢ 1 = 1024 over the 1024 rows turns 1024 − 2·∑ᵢ gᵢᵢ into ∑ᵢ (1 − 2·gᵢᵢ), and a sum of differences is the
  difference of the sums. The flat sums are brought to iterated sums over the coordinates by the product decomposition
  of a rank-2 and of a rank-3 index set. The factor λ and the divisor 64 are the same on both sides and are never
  evaluated.
-/

noncomputable section

namespace Cert.GramLoss

open Idealize.ShloMosaic Idealize.ShloMosaic.ValueIdx

/-! ## Coercion of sums, and the four constants as reals -/

/-- The embedding of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem c0_eq : c0 = ((0 : ℝ) : EReal) := Ideal.ofBits_zero_f32
theorem c1_eq : c1 = ((1 : ℝ) : EReal) := by
  simp [Ideal.ofBits, Ideal.ieee, -EReal.coe_mul]; norm_num
theorem c2_eq : c2 = ((2 : ℝ) : EReal) := by
  simp [Ideal.ofBits, Ideal.ieee, -EReal.coe_mul]; norm_num
theorem c1024_eq : c1024 = ((1024 : ℝ) : EReal) := by
  simp [Ideal.ofBits, Ideal.ieee, -EReal.coe_mul]; norm_num

/-! ## A rank-3 index set is the product of its three coordinate ranges -/

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The Gram entries over the reals -/

/-- Entry (i, j) of batch b's Gram matrix of a real array. -/
def gramR (xr : SX.Idx → ℝ) (b : Fin 64) (i j : Fin 1024) : ℝ :=
  ∑ k : Fin 64, xr (ix3 b i k) * xr (ix3 b j k)

/-- When every entry of x is a real, so is every Gram entry: the same sum of products, taken in ℝ. -/
theorem gram_coe (x : SX.Idx → EReal) (xr : SX.Idx → ℝ) (hxr : ∀ i, x i = (xr i : EReal))
    (b : Fin 64) (i j : Fin 1024) : gram x b i j = ((gramR xr b i j : ℝ) : EReal) := by
  unfold gram gramR
  rw [coe_sum]
  refine Finset.sum_congr rfl fun k _ => ?_
  rw [hxr, hxr, EReal.coe_mul]

/-! ## The two identities over the reals -/

/-- ∑_b ((1024 − 2·∑ᵢ G b i) + ∑ᵢ (G b i)²) = 0 + ∑_b ∑ᵢ ((1 − 2·G b i) + (G b i)²): the 1024 is ∑ᵢ 1. -/
theorem real_diag (G : Fin 64 → Fin 1024 → ℝ) :
    ∑ b : Fin 64, ((1024 - 2 * ∑ i : Fin 1024, G b i) + ∑ i : Fin 1024, G b i * G b i)
      = 0 + ∑ b : Fin 64, ∑ i : Fin 1024, ((1 - 2 * G b i) + G b i * G b i) := by
  rw [zero_add]
  refine Finset.sum_congr rfl fun b _ => ?_
  rw [Finset.sum_add_distrib, Finset.sum_sub_distrib, Finset.sum_const, Finset.card_univ, Fintype.card_fin,
    ← Finset.mul_sum, nsmul_eq_mul, mul_one]
  norm_num

/-- ∑_b (A b − B b) = (0 + ∑_b A b) − (0 + ∑_b B b). -/
theorem real_off (A B : Fin 64 → ℝ) :
    ∑ b : Fin 64, (A b - B b) = (0 + ∑ b : Fin 64, A b) - (0 + ∑ b : Fin 64, B b) := by
  rw [zero_add, zero_add, Finset.sum_sub_distrib]

/-! ## The two totals, batch by batch and flat -/

theorem sum_diagTerm_eq_flatDiag (x : SX.Idx → EReal) (hfin : ∀ i, ∃ r : ℝ, x i = (r : EReal)) :
    ∑ b : Fin 64, diagTerm x b = flatDiag x := by
  choose xr hxr using hfin
  have hg := gram_coe x xr hxr
  unfold flatDiag
  rw [sum_idx2]
  simp only [diagTerm, diagSum, diagSq, hg, c0_eq, c1_eq, c2_eq, c1024_eq]
  simp only [← EReal.coe_mul, ← coe_sum, ← EReal.coe_sub, ← EReal.coe_add]
  exact congrArg Real.toEReal (real_diag fun b i => gramR xr b i i)

theorem sum_offTerm_eq_flat (x : SX.Idx → EReal) (hfin : ∀ i, ∃ r : ℝ, x i = (r : EReal)) :
    ∑ b : Fin 64, offTerm x b = flatAllSq x - flatDiagSq x := by
  choose xr hxr using hfin
  have hg := gram_coe x xr hxr
  unfold flatAllSq flatDiagSq
  rw [sum_idx3, sum_idx2]
  simp only [offTerm, allSq, diagSq, hg, c0_eq]
  simp only [← EReal.coe_mul, ← coe_sum, ← EReal.coe_sub, ← EReal.coe_add]
  exact congrArg Real.toEReal
    (real_off (fun b => ∑ i : Fin 1024, ∑ j : Fin 1024, gramR xr b i j * gramR xr b i j)
      (fun b => ∑ i : Fin 1024, gramR xr b i i * gramR xr b i i))

/-- With every entry of x a real, the loss taken batch by batch is the loss taken from the flat totals. -/
theorem loss_eq_flatLoss (x : SX.Idx → EReal) (hfin : ∀ i, ∃ r : ℝ, x i = (r : EReal)) : loss x = flatLoss x := by
  unfold loss flatLoss
  rw [sum_diagTerm_eq_flatDiag x hfin, sum_offTerm_eq_flat x hfin]

end Cert.GramLoss

end
-- ==== Proof.Finite.lean ====
import proofs.«164244_j37520834298331_1_alg».proof.Pre_finite_inputs
import Idealize.ShloMosaic.Lib.ReduceAll
import Idealize.ShloMosaic.Lib.IdealHost
import Idealize.ShloMosaic.PureOps.Ideal

/-!
  From the precondition "every |x i| is below +∞" to "every x i is a real number".

  The precondition takes the absolute value of each entry, compares it with the pattern of +∞ by "less than",
  and folds the outcomes by "and" over all three axes. If that fold is 1, every single comparison came out 1, so at
  every index max (x i) (−x i) < ⊤ in the extended reals. Neither ⊤ nor ⊥ satisfies this (max ⊤ ⊥ = ⊤ both ways), so
  x i is the image of a real.
-/

noncomputable section

namespace Cert.GramLoss

open Idealize.ShloMosaic Idealize.ShloMosaic.ValueIdx

/-- A rank-0 shape has exactly one index. -/
instance subsingleton_scalarIdx : Subsingleton Cert.Pre_finite_inputs.S_.Idx :=
  ⟨fun _ _ => funext fun d => d.elim0⟩

/-- The pattern 0x7F800000 is +∞. -/
theorem ofBits_inf_f32 : Ideal.ofBits .f32 0x7F800000#32 = (⊤ : EReal) := by
  simp [Ideal.ofBits, Ideal.ieee]

/-- An extended real whose absolute value max a (−a) compares below ⊤ is a real. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

theorem finite_of_pre [Cert.Pre_finite_inputs.Facts] (x : FVec Ideal Cert.Pre_finite_inputs.S64x1024x64 .f32)
    (h : Cert.Pre_finite_inputs.fn (F := Ideal) x = fun _ => 1#1) : ∀ i, ∃ r : ℝ, x i = (r : EReal) := by
  intro i
  -- the fold's single result is 1
  have h0 := congrFun h ValueIdx.ix0
  dsimp only [Cert.Pre_finite_inputs.fn] at h0
  -- hence the comparison at index i is 1
  have h1 := Host.reduce_andi_all _ _ _ _ _ h0 i
  rw [cmpf_apply, broadcastInDim_scalar_apply, constant_apply, ofBits_inf_f32] at h1
  exact real_of_abs_lt_top (x i) h1

end Cert.GramLoss

end
-- ==== Proof.lean ====
/-
  The certificate's proof. Both programs compute, of the input x : [64, 1024, 64], the loss
    ((∑_b ((1024 − 2·∑ᵢ g_b(i,i)) + ∑ᵢ g_b(i,i)²)) + λ · ∑_b (∑ᵢ∑ⱼ g_b(i,j)² − ∑ᵢ g_b(i,i)²)) / 64
  of the batches' Gram matrices g_b = x_b · x_bᵀ. The kernel accumulates the two inner totals batch by batch over its
  grid and the host lines after it combine them; the reference forms all Gram matrices at once, takes their diagonals,
  and sums (1 − 2·g(i,i)) + g(i,i)² over all (b, i), g(i,j)² over all (b, i, j) and g(i,i)² over all (b, i). Over
  finite inputs every quantity is a real number and the two arrangements of the sums agree (∑ᵢ 1 = 1024).
  The three frames are the generated ones (the reference's is its run with the result dropped); the idealization
  rewrote nothing, so its claim is trivial.
-/
import proofs.«164244_j37520834298331_1_alg».proof.Defs
import proofs.«164244_j37520834298331_1_alg».proof.Proof.Gen.Kernel
import proofs.«164244_j37520834298331_1_alg».proof.Proof.Gen.Kernel.Skeleton
import proofs.«164244_j37520834298331_1_alg».proof.Proof.Gen.Kernel.Launch
import proofs.«164244_j37520834298331_1_alg».proof.Proof.Gen.Kernel.Points
import proofs.«164244_j37520834298331_1_alg».proof.Proof.Gen.Kernel.Frame
import proofs.«164244_j37520834298331_1_alg».proof.Proof.Gen.KernelIdeal
import proofs.«164244_j37520834298331_1_alg».proof.Proof.Gen.KernelIdeal.Skeleton
import proofs.«164244_j37520834298331_1_alg».proof.Proof.Gen.KernelIdeal.Launch
import proofs.«164244_j37520834298331_1_alg».proof.Proof.Gen.KernelIdeal.Points
import proofs.«164244_j37520834298331_1_alg».proof.Proof.Gen.KernelIdeal.Frame
import proofs.«164244_j37520834298331_1_alg».proof.Proof.Gen.ReferenceIdeal
import proofs.«164244_j37520834298331_1_alg».proof.Proof.Gen.Pre_finite_inputs
import proofs.«164244_j37520834298331_1_alg».proof.Proof.Gen.ReferenceIdeal.Run
import proofs.«164244_j37520834298331_1_alg».proof.Proof.Gen.ReferenceIdeal.Read
import proofs.«164244_j37520834298331_1_alg».proof.Proof.KernelRun
import proofs.«164244_j37520834298331_1_alg».proof.Proof.RefValue
import proofs.«164244_j37520834298331_1_alg».proof.Proof.Algebra
import proofs.«164244_j37520834298331_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result is the loss batch by batch; the reference's is the loss over the flat index sets; the input,
    finite by the precondition, makes the two equal. -/
theorem algebraic : Cert.algebraic_KernelIdeal_ReferenceIdeal := by
  intro m ρ m' ρ' hpre hagree
  refine ⟨fun c => fun _ => Cert.GramLoss.loss (Cert.GramLoss.Acc.xin m c), Cert.GramLoss.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, hagree c]
  funext i
  rw [Cert.GramLoss.RefValue.ref_eq]
  exact (Cert.GramLoss.loss_eq_flatLoss _ (Cert.GramLoss.finite_of_pre _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
